-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1200000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S10000x64 : Shape := ⟨2, ![10000, 64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 63
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x1200000, .i32⟩
  | .hbm, ⟨7, _⟩ => ⟨S1200000, .i32⟩
  | .hbm, ⟨8, _⟩ => ⟨S1300000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S_, .f32⟩
  | .hbm, ⟨13, _⟩ => ⟨S1300000, .f32⟩
  | .hbm, ⟨14, _⟩ => ⟨S_, .f32⟩
  | .hbm, ⟨15, _⟩ => ⟨S100000, .f32⟩
  | .hbm, ⟨16, _⟩ => ⟨S1300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1300000, .i32⟩
  | .hbm, ⟨28, _⟩ => ⟨S1300000, .i1⟩
  | .hbm, ⟨29, _⟩ => ⟨S_, .i32⟩
  | .hbm, ⟨30, _⟩ => ⟨S1300000, .i32⟩
  | .hbm, ⟨31, _⟩ => ⟨S1300000, .i32⟩
  | .hbm, ⟨32, _⟩ => ⟨S1300000, .i32⟩
  | .hbm, ⟨33, _⟩ => ⟨S1300000x1, .i32⟩
  | .hbm, ⟨34, _⟩ => ⟨S1300000, .f32⟩
  | .hbm, ⟨35, _⟩ => ⟨S_, .i32⟩
  | .hbm, ⟨36, _⟩ => ⟨S1300000, .i32⟩
  | .hbm, ⟨37, _⟩ => ⟨S1300000, .i1⟩
  | .hbm, ⟨38, _⟩ => ⟨S_, .i32⟩
  | .hbm, ⟨39, _⟩ => ⟨S1300000, .i32⟩
  | .hbm, ⟨40, _⟩ => ⟨S1300000, .i32⟩
  | .hbm, ⟨41, _⟩ => ⟨S1300000, .i32⟩
  | .hbm, ⟨42, _⟩ => ⟨S1300000x1, .i32⟩
  | .hbm, ⟨43, _⟩ => ⟨S1300000, .f32⟩
  | .hbm, ⟨44, _⟩ => ⟨S1300000, .f32⟩
  | .hbm, ⟨45, _⟩ => ⟨S_, .i32⟩
  | .hbm, ⟨46, _⟩ => ⟨S1300000, .i32⟩
  | .hbm, ⟨47, _⟩ => ⟨S1300000, .i1⟩
  | .hbm, ⟨48, _⟩ => ⟨S_, .i32⟩
  | .hbm, ⟨49, _⟩ => ⟨S1300000, .i32⟩
  | .hbm, ⟨50, _⟩ => ⟨S1300000, .i32⟩
  | .hbm, ⟨51, _⟩ => ⟨S1300000, .i32⟩
  | .hbm, ⟨52, _⟩ => ⟨S1300000x1, .i32⟩
  | .hbm, ⟨53, _⟩ => ⟨S1300000x64, .f32⟩
  | .hbm, ⟨54, _⟩ => ⟨S1300000x1, .f32⟩
  | .hbm, ⟨55, _⟩ => ⟨S1300000x64, .f32⟩
  | .hbm, ⟨56, _⟩ => ⟨S1300000x64, .f32⟩
  | .hbm, ⟨57, _⟩ => ⟨S_, .f32⟩
  | .hbm, ⟨58, _⟩ => ⟨S100000x64, .f32⟩
  | .hbm, ⟨59, _⟩ => ⟨S1300000x1, .i32⟩
  | .hbm, ⟨60, _⟩ => ⟨S100000x64, .f32⟩
  | .hbm, ⟨61, _⟩ => ⟨S1x64, .f32⟩
  | .hbm, ⟨62, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x64_S64x64_S10000x64_1_0_0_1_n_n_wf : DotDims.WF S10000x64 S64x64 S10000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x1200000, .i32⟩
  | .hbm, ⟨7, _⟩ => ⟨S1200000, .i32⟩
  | .hbm, ⟨8, _⟩ => ⟨S1300000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S_, .f32⟩
  | .hbm, ⟨13, _⟩ => ⟨S1300000, .f32⟩
  | .hbm, ⟨14, _⟩ => ⟨S_, .f32⟩
  | .hbm, ⟨15, _⟩ => ⟨S100000, .f32⟩
  | .hbm, ⟨16, _⟩ => ⟨S1300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1300000, .i32⟩
  | .hbm, ⟨28, _⟩ => ⟨S1300000, .i1⟩
  | .hbm, ⟨29, _⟩ => ⟨S_, .i32⟩
  | .hbm, ⟨30, _⟩ => ⟨S1300000, .i32⟩
  | .hbm, ⟨31, _⟩ => ⟨S1300000, .i32⟩
  | .hbm, ⟨32, _⟩ => ⟨S1300000, .i32⟩
  | .hbm, ⟨33, _⟩ => ⟨S1300000x1, .i32⟩
  | .hbm, ⟨34, _⟩ => ⟨S1300000, .f32⟩
  | .hbm, ⟨35, _⟩ => ⟨S_, .i32⟩
  | .hbm, ⟨36, _⟩ => ⟨S1300000, .i32⟩
  | .hbm, ⟨37, _⟩ => ⟨S1300000, .i1⟩
  | .hbm, ⟨38, _⟩ => ⟨S_, .i32⟩
  | .hbm, ⟨39, _⟩ => ⟨S1300000, .i32⟩
  | .hbm, ⟨40, _⟩ => ⟨S1300000, .i32⟩
  | .hbm, ⟨41, _⟩ => ⟨S1300000, .i32⟩
  | .hbm, ⟨42, _⟩ => ⟨S1300000x1, .i32⟩
  | .hbm, ⟨43, _⟩ => ⟨S1300000, .f32⟩
  | .hbm, ⟨44, _⟩ => ⟨S1300000, .f32⟩
  | .hbm, ⟨45, _⟩ => ⟨S_, .i32⟩
  | .hbm, ⟨46, _⟩ => ⟨S1300000, .i32⟩
  | .hbm, ⟨47, _⟩ => ⟨S1300000, .i1⟩
  | .hbm, ⟨48, _⟩ => ⟨S_, .i32⟩
  | .hbm, ⟨49, _⟩ => ⟨S1300000, .i32⟩
  | .hbm, ⟨50, _⟩ => ⟨S1300000, .i32⟩
  | .hbm, ⟨51, _⟩ => ⟨S1300000, .i32⟩
  | .hbm, ⟨52, _⟩ => ⟨S1300000x1, .i32⟩
  | .hbm, ⟨53, _⟩ => ⟨S1300000x64, .f32⟩
  | .hbm, ⟨54, _⟩ => ⟨S1300000x1, .f32⟩
  | .hbm, ⟨55, _⟩ => ⟨S1300000x64, .f32⟩
  | .hbm, ⟨56, _⟩ => ⟨S1300000x64, .f32⟩
  | .hbm, ⟨57, _⟩ => ⟨S_, .f32⟩
  | .hbm, ⟨58, _⟩ => ⟨S100000x64, .f32⟩
  | .hbm, ⟨59, _⟩ => ⟨S1300000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.Aggregate.lean ====
/-
  The host stretch between the two kernel regions, as ONE function of the array it reads.

  Both programs turn the transformed features `h` ([100000, 64]) and the edge list `e` ([2, 1200000], integers) into the
  aggregated array by the same operations: the source and destination node of every edge followed by one self-loop per node
  (`srcNodes`, `dstNodes`), each node's in-degree as a sum of ones scattered to the destinations (`degree`), its inverse
  square root where the degree is positive and zero elsewhere (`invSqrtDeg`), the weight of an edge as the product of the two
  at its ends (`edgeWeight`; a negative node number is read from the end of the table, `fromEnd`), and the sum, into each
  destination's row, of the source's row of `h` scaled by the edge's weight (`aggregate`). Nothing below looks inside a
  gather or a scatter: the function is only named, so that it can be applied to two equal arrays.
  The second half says what the kernel program's three host stretches leave in the two buffers the second region reads.
-/
import proofs.«152107_j28303834481477_1_alg».proof.Proof.Gen.KernelIdeal.Launch
import Idealize.ShloMosaic.Lib.StableHlo.Run

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]

/-- One self-loop per node: the node numbers 0 … 99999. -/
def selfLoops : IVec S100000 32 := iotaInDim S100000 32 0

/-- The edges' source nodes (row 0 of the edge list), then the self-loops. -/
def srcNodes (e : IVec S2x1200000 32) : IVec S1300000 32 :=
  concatenate S1300000 0 [⟨S1200000, shapeCast _ (extractStridedSlice S1x1200000 ![0, 0] e slices_S2x1200000_S1x1200000_0_0) shapeCasts_S1x1200000_S1200000⟩, ⟨S100000, selfLoops⟩] concatenates_S1200000_S100000_S1300000_d0

/-- The edges' destination nodes (row 1 of the edge list), then the self-loops. -/
def dstNodes (e : IVec S2x1200000 32) : IVec S1300000 32 :=
  concatenate S1300000 0 [⟨S1200000, shapeCast _ (extractStridedSlice S1x1200000 ![1, 0] e slices_S2x1200000_S1x1200000_1_0) shapeCasts_S1x1200000_S1200000⟩, ⟨S100000, selfLoops⟩] concatenates_S1200000_S100000_S1300000_d0

/-- A node number below zero counts from the end of a table of 100000 rows. -/
def fromEnd (v : IVec S1300000 32) : IVec S1300000 32 :=
  select (cmpi .slt v (broadcastInDim S1300000 ![] bcast_S_S1300000 (constantI S_ 32 0#32)))
    (addi v (broadcastInDim S1300000 ![] bcast_S_S1300000 (constantI S_ 32 100000#32))) v

/-- A list of node numbers as a column of one-entry index vectors. -/
def asColumn (v : IVec S1300000 32) : IVec S1300000x1 32 :=
  broadcastInDim S1300000x1 ![0] bcast_S1300000_S1300000x1_0 v

/-- Each node's in-degree, self-loop included: ones summed into the destinations. -/
def degree (e : IVec S2x1200000 32) : FVec F S100000 .f32 :=
  Host.scatterAdd scatter_S100000_S1300000x1_S1300000_n_0_0_1
    (broadcastInDim S100000 ![] bcast_S_S100000 (constant S_ .f32 0x00000000#32))
    (asColumn (dstNodes e))
    (broadcastInDim S1300000 ![] bcast_S_S1300000 (constant S_ .f32 0x3F800000#32))

/-- The inverse square root of the degree where it is positive, zero elsewhere. -/
def invSqrtDeg (e : IVec S2x1200000 32) : FVec F S100000 .f32 :=
  select (cmpf (F := F) .ogt (degree e) (broadcastInDim S100000 ![] bcast_S_S100000 (constant S_ .f32 0x00000000#32)))
    (Host.rsqrt (degree (F := F) e))
    (broadcastInDim S100000 ![] bcast_S_S100000 (constant S_ .f32 0x00000000#32))

/-- An edge's weight: the product of the two inverse square roots at its ends. -/
def edgeWeight (e : IVec S2x1200000 32) : FVec F S1300000 .f32 :=
  mulf (Host.gather gather_S100000_S1300000x1_S1300000_n_0_n_n_0_1_1 (invSqrtDeg (F := F) e) (asColumn (fromEnd (srcNodes e))))
    (Host.gather gather_S100000_S1300000x1_S1300000_n_0_n_n_0_1_1 (invSqrtDeg (F := F) e) (asColumn (fromEnd (dstNodes e))))

/-- The aggregated array: into each destination's row, the sum over its incoming edges of the source's row of `h` times
    the edge's weight. -/
def aggregate (h : FVec F S100000x64 .f32) (e : IVec S2x1200000 32) : FVec F S100000x64 .f32 :=
  Host.scatterAdd scatter_S100000x64_S1300000x1_S1300000x64_1_0_0_1
    (broadcastInDim S100000x64 ![] bcast_S_S100000x64 (constant S_ .f32 0x00000000#32))
    (asColumn (dstNodes e))
    (mulf (Host.gather gather_S100000x64_S1300000x1_S1300000x64_1_0_n_n_0_1_164 h (asColumn (fromEnd (srcNodes e))))
      (broadcastInDim S1300000x64 ![0, 1] bcast_S1300000x1_S1300000x64_0_1
        (broadcastInDim S1300000x1 ![0] bcast_S1300000_S1300000x1_0 (edgeWeight (F := F) e))))

/-- The bias vector as a one-row array. -/
def biasRow (b : FVec F S64 .f32) : FVec F S1x64 .f32 := shapeCast _ b shapeCasts_S64_S1x64

/-! ## What the kernel program's host stretches leave, from any contents `U` at the first region's exit -/

/-- The aggregated array's buffer after the three stretches is `aggregate` of the first region's result buffer and the
    edge list, as the stretches found them. -/
theorem aggregated_after (U : Valuation τ sig (Elt F)) :
    StableHlo.after hostOps1_2 (StableHlo.after hostOps1_1 (StableHlo.after hostOps1 U)) (Proc.devRef .tc main_v43)
      = aggregate (F := F) (U (Proc.devRef .tc main_v0)) (U (Proc.devRef .tc main_arg1)) := by
  simp only [hostOps1, hostOps1_1, hostOps1_2]
  after_results_simp
  rfl

/-- The one-row bias buffer after the three stretches is the bias vector reshaped. -/
theorem biasRow_after (U : Valuation τ sig (Elt F)) :
    StableHlo.after hostOps1_2 (StableHlo.after hostOps1_1 (StableHlo.after hostOps1 U)) (Proc.devRef .tc main_v44)
      = biasRow (F := F) (U (Proc.devRef .tc main_arg3)) := by
  simp only [hostOps1, hostOps1_1, hostOps1_2]
  after_results_simp
  rfl

end Cert.KernelIdeal.Host

end
-- ==== Proof.MatmulBlocks.lean ====
/-
  The first kernel region — the row-blocked matrix product — read as ONE function of the arrays it finds.

  Grid point `t` (of ten) stages rows `10000·t … 10000·t + 9999` of `x` and the whole of `W`, narrows both to bf16
  (the identity on the extended reals) and stores the product of the two into a zero accumulator: at row `p`, column `q` of
  its block the sum over `k < 64` of `x[10000·t + p, k] · W[k, q]`. The ten row blocks tile the [100000, 64] result and
  every block is written back, so after the region the result array holds `∑ k, x[r, k] · W[k, q]` at every `(r, q)`
  (`rowsTimes`), whatever the contents `V` the region is entered with.
-/
import proofs.«152107_j28303834481477_1_alg».proof.Proof.Gen.KernelIdeal.Frame
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.Matmul

open Cert.KernelIdeal Cert.KernelIdeal.Gen

/-- Entry `(r, k)` of the [100000, 64] input. -/
abbrev inAt (r : Nat) (hr : r < 100000) (k : Fin 64) : S100000x64.Idx := fun a => match a with
  | ⟨0, _⟩ => ⟨r, hr⟩
  | ⟨1, _⟩ => ⟨k.val, k.isLt⟩
/-- Entry `(k, q)` of the [64, 64] weight. -/
abbrev wAt (k : Fin 64) (q : Nat) (hq : q < 64) : S64x64.Idx := fun a => match a with
  | ⟨0, _⟩ => ⟨k.val, k.isLt⟩
  | ⟨1, _⟩ => ⟨q, hq⟩
/-- Entry `(p, k)` of a [10000, 64] row block. -/
abbrev blkAt (p : Nat) (hp : p < 10000) (k : Fin 64) : S10000x64.Idx := fun a => match a with
  | ⟨0, _⟩ => ⟨p, hp⟩
  | ⟨1, _⟩ => ⟨k.val, k.isLt⟩

/-- The product of the input with the weight, entry by entry: row `r` of `x` against column `q` of `w`. -/
def rowsTimes (x : FVec Ideal S100000x64 .f32) (w : FVec Ideal S64x64 .f32) : FVec Ideal S100000x64 .f32 :=
  fun i => ∑ k : Fin 64, x (inAt (i 0).val (idx2_lt0 i) k) * w (wAt k (i 1).val (idx2_lt1 i))

theorem zero_off : (![0, 0] : Fin 2 → Nat) = fun _ => 0 := funext fun a => by fin_cases a <;> rfl

/-! The block product's operand indices, axis by axis: the left operand is read at the output's row and the contracted
    coordinate, the right one at the contracted coordinate and the output's column. -/

theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's stored value at row `p`, column `q` of a block: the sum over the contracted coordinate of the loaded input
    block's row against the loaded weight's column (narrowing to bf16 changes nothing here; the accumulator is zero). -/
theorem pay_apply (x0 : Vec Ideal S10000x64 .f32) (x1 : Vec Ideal S64x64 .f32) (j : S10000x64.Idx) :
    k0_pay1 (F := Ideal) x0 x1 j
      = ∑ k : Fin 64, x0 (blkAt (j 0).val (idx2_lt0 j) k) * x1 (wAt k (j 1).val (idx2_lt1 j)) := by
  unfold k0_pay1
  show FloatOps.matmul (F := Ideal) dot_S10000x64_S64x64_S10000x64_1_0_0_1_n_n none (truncf (F := Ideal) .bf16 x0 bitsLt_bf16_f32) (truncf (F := Ideal) .bf16 x1 bitsLt_bf16_f32) (constant (F := Ideal) S10000x64 .f32 0x00000000#32) j = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx j ((contrEquiv1 dot_S10000x64_S64x64_S10000x64_1_0_0_1_n_n 64 rfl rfl).symm k) = blkAt (j 0).val (idx2_lt0 j) k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx j ((contrEquiv1 dot_S10000x64_S64x64_S10000x64_1_0_0_1_n_n 64 rfl rfl).symm k) = wAt k (j 1).val (idx2_lt1 j) := funext fun a => Fin.ext (by
    match a with
    | ⟨0, _⟩ => exact (rhs_axis0 _ _).trans hk
    | ⟨1, _⟩ => exact rhs_axis1 _ _)
  rw [el, er]
  rfl

section Region

variable (V : (c : Dev nD) → (b : Ref sig .tc) → Buf (Elt Ideal) ((c : Thread nD τ).loc b))

/-- The printed index maps over the ten grid points: the input's window and the result's window are both at row block `t`,
    column block 0; the weight's window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `rowsTimes` of the two arrays the region finds. -/
theorem flushed_eq (c : Dev nD) (t : Fin cfg0.N) :
    (dat0 V c).flushed 2 t
      = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero zero_off]
  simp only [View.ld_unit_zero (S := S10000x64) zero_off, View.ld_unit_zero (S := S64x64) zero_off]
  obtain ⟨e0, e1, e2, e3, e4, e5⟩ := idx_facts t
  funext j
  show k0_pay1 (F := Ideal) (iblk0 V c 0 t) (iblk0 V c 1 t) j
      = rowsTimes (V c main_arg0) (V c main_arg2) (((cfg0.win 2).blk t).view.emb j)
  refine (pay_apply (iblk0 V c 0 t) (iblk0 V c 1 t) j).trans ?_
  unfold rowsTimes
  have hj0 : (j 0).val < 10000 := idx2_lt0 j
  have hj1 : (j 1).val < 64 := idx2_lt1 j
  refine Finset.sum_congr rfl fun k _ => ?_
  have hk : k.val < 64 := k.isLt
  have h0 : iblk0 V c 0 t (blkAt (j 0).val (idx2_lt0 j) k)
      = V c main_arg0 (inAt ((((cfg0.win 2).blk t).view.emb j) 0).val (idx2_lt0 _) k) := by
    show V c main_arg0 (((cfg0.win 0).blk t).view.emb (blkAt (j 0).val (idx2_lt0 j) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : iblk0 V c 1 t (wAt k (j 1).val (idx2_lt1 j))
      = V c main_arg2 (wAt k ((((cfg0.win 2).blk t).view.emb j) 1).val (idx2_lt1 _)) := by
    show V c main_arg2 (((cfg0.win 1).blk t).view.emb (wAt k (j 1).val (idx2_lt1 j))) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [h0, h1]

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row `r` of the result lies in the block of point `r / 10000`, which is written back. -/
theorem cover (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 10 := N_0
  refine ⟨⟨(i 0).val / 10000, by rw [hN]; omega⟩, flush0_2 _, ?_⟩
  rw [mem_blk]
  obtain ⟨e0, e1, e2, e3, e4, e5⟩ := idx_facts ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 64 ≤ (i 1).val ∧ (i 1).val < win0_2.index _ (1 : Fin 2) * 64 + 64; rw [e5]; omega

/-- After the region the result array is `rowsTimes` of the input and the weight as the region found them. -/
theorem final (c : Dev nD) :
    (dat0 V c).arrAt 2 cfg0.N = rowsTimes (V c main_arg0) (V c main_arg2) :=
  (dat0 V c).arrAt_eq_of_cover 2 (rowsTimes (V c main_arg0) (V c main_arg2)) (fun t _ => flushed_eq V c t) cover

end Region

end Cert.KernelIdeal.Matmul

end
-- ==== Proof.EpilogueBlocks.lean ====
/-
  The second kernel region — bias add and clamp at zero — read as ONE function of the arrays it finds.

  Grid point `t` (of ten) stages rows `10000·t … 10000·t + 9999` of the aggregated array and the whole bias row,
  and stores, at row `p` and column `q` of its block, `max (a[10000·t + p, q] + b[0, q], 0)`. The ten row blocks
  tile the [100000, 64] result, every block is written back, so after the region the result array holds
  `max (a[r, q] + b[0, q], 0)` at every `(r, q)` (`biasRelu`), whatever the contents `V` the region is entered with.
-/
import proofs.«152107_j28303834481477_1_alg».proof.Proof.Gen.KernelIdeal.Frame
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.Epilogue

open Cert.KernelIdeal Cert.KernelIdeal.Gen

/-- Column `q` of the one-row bias array. -/
abbrev biasAt (q : Nat) (h : q < 64) : S1x64.Idx := fun a => match a with
  | ⟨0, _⟩ => ⟨0, Nat.one_pos⟩
  | ⟨1, _⟩ => ⟨q, h⟩

/-- Row `r`, column `q` of the result: the aggregated entry plus the bias of its column, clamped below at zero. -/
def biasRelu (a : FVec Ideal S100000x64 .f32) (b : FVec Ideal S1x64 .f32) : FVec Ideal S100000x64 .f32 :=
  fun i => max (a i + b (biasAt (i 1).val (idx2_lt1 i))) (FloatOps.ofBits (F := Ideal) .f32 0x00000000#32)

theorem zero_off : (![0, 0] : Fin 2 → Nat) = fun _ => 0 := funext fun a => by fin_cases a <;> rfl

/-- The body's stored value at row `p`, column `q` of a block: the loaded entry plus the bias row's entry of that column,
    clamped at zero (the two shape casts are identities; the bias row is broadcast along the rows). -/
theorem pay_apply (x0 : Vec Ideal S10000x64 .f32) (x1 : Vec Ideal S1x64 .f32) (j : S10000x64.Idx) :
    k1_pay1 (F := Ideal) x0 x1 j = max (x0 j + x1 (biasAt (j 1).val (idx2_lt1 j))) (FloatOps.ofBits (F := Ideal) .f32 0x00000000#32) := by
  unfold k1_pay1
  simp only [shapeCast_self]
  show max (x0 j + broadcastTo S10000x64 x1 broadcasts_S1x64_S10000x64 j) _ = _
  rw [broadcastTo_apply x1 broadcasts_S1x64_S10000x64 j (biasAt (j 1).val (idx2_lt1 j)) (fun a => by
    match a with
    | ⟨0, _⟩ => rfl
    | ⟨1, _⟩ => rfl)]
  rfl

section Region

variable (V : (c : Dev nD) → (b : Ref sig .tc) → Buf (Elt Ideal) ((c : Thread nD τ).loc b))

/-- The printed index maps over the ten grid points: the aggregated array's window and the result's window are both at
    row block `t`, column block 0; the bias row's window stays at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRelu` of the two arrays the region finds. -/
theorem flushed_eq (c : Dev nD) (t : Fin cfg1.N) :
    (dat1 V c).flushed 2 t
      = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero zero_off]
  simp only [View.ld_unit_zero (S := S10000x64) zero_off, View.ld_unit_zero (S := S1x64) zero_off]
  obtain ⟨e0, e1, e2, e3, e4, e5⟩ := idx_facts t
  funext j
  show k1_pay1 (F := Ideal) (iblk1 V c 0 t) (iblk1 V c 1 t) j
      = biasRelu (V c main_v43) (V c main_v44) (((cfg1.win 2).blk t).view.emb j)
  refine (pay_apply (iblk1 V c 0 t) (iblk1 V c 1 t) j).trans ?_
  unfold biasRelu
  have hj0 : (j 0).val < 10000 := idx2_lt0 j
  have hj1 : (j 1).val < 64 := idx2_lt1 j
  have h0 : iblk1 V c 0 t j = V c main_v43 (((cfg1.win 2).blk t).view.emb j) := by
    show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : iblk1 V c 1 t (biasAt (j 1).val (idx2_lt1 j))
      = V c main_v44 (biasAt ((((cfg1.win 2).blk t).view.emb j) 1).val (idx2_lt1 _)) := by
    show V c main_v44 (((cfg1.win 1).blk t).view.emb (biasAt (j 1).val (idx2_lt1 j))) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

/-- Row `r` of the result lies in the block of point `r / 10000`. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

theorem cover (i : S100000x64.Idx) :
    ∃ t : Fin cfg1.N, (cfg1.win 2).flush t = true ∧ i ∈ ((cfg1.win 2).blk t).view.set := by
  have hi0 : (i 0).val < 100000 := idx2_lt0 i
  have hi1 : (i 1).val < 64 := idx2_lt1 i
  have hN : cfg1.N = 10 := N_1
  refine ⟨⟨(i 0).val / 10000, by rw [hN]; omega⟩, flush1_2 _, ?_⟩
  rw [mem_blk]
  obtain ⟨e0, e1, e2, e3, e4, e5⟩ := idx_facts ⟨(i 0).val / 10000, by rw [hN]; omega⟩
  intro a
  match a with
  | ⟨0, _⟩ => show win1_2.index _ (0 : Fin 2) * 10000 ≤ (i 0).val ∧ (i 0).val < win1_2.index _ (0 : Fin 2) * 10000 + 10000; rw [e4]; show (i 0).val / 10000 * 10000 ≤ (i 0).val ∧ (i 0).val < (i 0).val / 10000 * 10000 + 10000; omega
  | ⟨1, _⟩ => show win1_2.index _ (1 : Fin 2) * 64 ≤ (i 1).val ∧ (i 1).val < win1_2.index _ (1 : Fin 2) * 64 + 64; rw [e5]; omega

/-- After the region the result array is `biasRelu` of the aggregated array and the bias row as the region found them. -/
theorem final (c : Dev nD) :
    (dat1 V c).arrAt 2 cfg1.N = biasRelu (V c main_v43) (V c main_v44) :=
  (dat1 V c).arrAt_eq_of_cover 2 (biasRelu (V c main_v43) (V c main_v44)) (fun t _ => flushed_eq V c t) cover

end Region

end Cert.KernelIdeal.Epilogue

end
-- ==== Proof.KernelValue.lean ====
/-
  The kernel program's result as one function of its arguments, on the extended reals.

  The run leaves the result buffer at the last segment boundary's contents. Walking the boundaries back: the second
  region's result array is `biasRelu` of the two arrays that region finds; those are, after the host stretches, `aggregate`
  of the first region's result array and the edge list, and the bias vector as a one-row array; the first region's result
  array is `rowsTimes` of the input and the weight, which no one has written before it. So the result is
  `biasRelu (aggregate (rowsTimes x W) e) (biasRow bias)` of the launch contents of the four arguments.
-/
import proofs.«152107_j28303834481477_1_alg».proof.Proof.KernelRun
import proofs.«152107_j28303834481477_1_alg».proof.Proof.Aggregate
import proofs.«152107_j28303834481477_1_alg».proof.Proof.MatmulBlocks
import proofs.«152107_j28303834481477_1_alg».proof.Proof.EpilogueBlocks

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The kernel program's result, from the launch contents of its arguments. -/
def result (c : Dev nD) : Buf (Elt Ideal) ((c.tc : Thread nD τ).loc main_v45) :=
  Epilogue.biasRelu
    (Host.aggregate (F := Ideal)
      (Matmul.rowsTimes (m ((c.tc : Thread nD τ).loc main_arg0)) (m ((c.tc : Thread nD τ).loc main_arg2)))
      (m ((c.tc : Thread nD τ).loc main_arg1)))
    (Host.biasRow (F := Ideal) (m ((c.tc : Thread nD τ).loc main_arg3)))

/-- At the first region's exit its result array holds the product of the launched input and weight. -/
theorem product_at_exit (c : Dev nD) :
    W1 m ρ c (Proc.devRef .tc main_v0)
      = Matmul.rowsTimes (m ((c.tc : Thread nD τ).loc main_arg0)) (m ((c.tc : Thread nD τ).loc main_arg2)) :=
  (W1_arr m ρ c 2).trans (Matmul.final (V0 m ρ) c)

/-- The edge list is as launched at the first region's exit: that region does not touch it. -/
theorem edges_at_exit (c : Dev nD) :
    W1 m ρ c (Proc.devRef .tc main_arg1) = m ((c.tc : Thread nD τ).loc main_arg1) :=
  W1_of_ne m ρ c main_arg1 (by decide)

/-- So is the bias vector. -/
theorem bias_at_exit (c : Dev nD) :
    W1 m ρ c (Proc.devRef .tc main_arg3) = m ((c.tc : Thread nD τ).loc main_arg3) :=
  W1_of_ne m ρ c main_arg3 (by decide)

/-- The last boundary's contents at the result buffer are `result`. -/
theorem out_eq (c : Dev nD) : W5 m ρ c (Proc.devRef .tc main_v45) = result m c := by
  refine (W5_arr m ρ c 2).trans ?_
  rw [Epilogue.final (V4 m ρ) c]
  unfold result
  have ha : V4 m ρ c main_v43
      = Host.aggregate (F := Ideal)
          (Matmul.rowsTimes (m ((c.tc : Thread nD τ).loc main_arg0)) (m ((c.tc : Thread nD τ).loc main_arg2)))
          (m ((c.tc : Thread nD τ).loc main_arg1)) := by
    show StableHlo.after hostOps1_2 (StableHlo.after hostOps1_1 (StableHlo.after hostOps1 (W1 m ρ c))) (Proc.devRef .tc main_v43) = _
    rw [Host.aggregated_after, product_at_exit, edges_at_exit]
  have hb : V4 m ρ c main_v44 = Host.biasRow (F := Ideal) (m ((c.tc : Thread nD τ).loc main_arg3)) := by
    show StableHlo.after hostOps1_2 (StableHlo.after hostOps1_1 (StableHlo.after hostOps1 (W1 m ρ c))) (Proc.devRef .tc main_v44) = _
    rw [Host.biasRow_after, bias_at_exit]
  rw [ha, hb]

/-- The run, read: the result buffer at `result`, the arguments as launched. -/
theorem run : θ_run defs (onTc (τ := τ) (main (F := Ideal))) ⟨m, fun _ => 0, ρ⟩ (fun r => ∀ c : Dev nD,
      r.2.mem ((c.tc : Thread nD τ).loc main_v45) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (out_eq m ρ c), (h c).2⟩) (run_out (F := Ideal) m ρ)

end Cert.KernelIdeal.Hand

end
-- ==== Proof.RefValue.lean ====
/-
  The reference's result as the same functions the kernel program's value is stated with.

  The reference computes `max (aggregate (x · W) e + bias, 0)`: a whole-array product on the host, the same host stretch
  as the kernel program's (`Cert.KernelIdeal.Host.aggregate`: the two printed texts apply the same operations with the same
  literals, so the composed term of the reference's run IS that function applied to the host product, `result_term`), the
  bias broadcast along the rows, and a clamp at zero. On the extended reals the host product at row `r`, column `q` is
  `∑ k, x[r, k] · W[k, q]` (`hostProduct_eq`) and the broadcast bias at `(r, q)` is the bias of column `q`
  (`refEpilogue_eq`), which is what the kernel's two regions compute block by block.
-/
import proofs.«152107_j28303834481477_1_alg».proof.Proof.RefRun
import proofs.«152107_j28303834481477_1_alg».proof.Proof.Aggregate
import proofs.«152107_j28303834481477_1_alg».proof.Proof.MatmulBlocks
import proofs.«152107_j28303834481477_1_alg».proof.Proof.EpilogueBlocks
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.ValueIdx

namespace Cert.ReferenceIdeal.Hand

open Cert.ReferenceIdeal Cert.ReferenceIdeal.Gen

variable {F : FTy → Type} [FloatOps F]

/-- The reference's last three operations: the bias broadcast to a row, the row broadcast along the rows and added, the
    clamp at zero. -/
def refEpilogue (a : FVec F S100000x64 .f32) (b : FVec F S64 .f32) : FVec F S100000x64 .f32 :=
  maximumf (addf a (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The composed term of the reference's run is the epilogue of `aggregate` of the host product and the edge list: the
    same operations in the same order, so the two terms are one (by unfolding the names on the right). -/
theorem result_term (m : (ℓ : Loc nD τ sig) → Buf (Elt F) ℓ) (c : Dev nD) :
    Cert.ReferenceIdeal.ValueP.res_main_v47 (F := F) m c
      = refEpilogue (Cert.KernelIdeal.Host.aggregate (F := F)
          (Host.dotGeneral dot_S100000x64_S64x64_S100000x64_1_0_0_1_n_n none (m ((c.tc : Thread nD τ).loc main_arg0)) (m ((c.tc : Thread nD τ).loc main_arg2)))
          (m ((c.tc : Thread nD τ).loc main_arg1)))
        (m ((c.tc : Thread nD τ).loc main_arg3)) := by
  unfold Cert.ReferenceIdeal.ValueP.res_main_v47
  rfl

/-! The host product's operand indices, axis by axis: the left operand is read at the output's row and the contracted
    coordinate, the right one at the contracted coordinate and the output's column. -/

theorem lhs_axis0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs_axis1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_axis0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_axis1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- On the extended reals the host's whole-array product is, entry by entry, the sum the kernel's row blocks compute. -/
theorem hostProduct_eq (x : FVec Ideal S100000x64 .f32) (w : FVec Ideal S64x64 .f32) :
    Host.dotGeneral (F := Ideal) dot_S100000x64_S64x64_S100000x64_1_0_0_1_n_n none x w = Cert.KernelIdeal.Matmul.rowsTimes x w := by
  funext i
  show Host.dotGeneral (F := Ideal) dot_S100000x64_S64x64_S100000x64_1_0_0_1_n_n none x w i
    = ∑ k : Fin 64, x (Cert.KernelIdeal.Matmul.inAt (i 0).val (idx2_lt0 i) k) * w (Cert.KernelIdeal.Matmul.wAt k (i 1).val (idx2_lt1 i))
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx i ((contrEquiv1 dot_S100000x64_S64x64_S100000x64_1_0_0_1_n_n 64 rfl rfl).symm k) = Cert.KernelIdeal.Matmul.inAt (i 0).val (idx2_lt0 i) k := funext fun a => Fin.ext (by
    match a with
    | ⟨0, _⟩ => exact lhs_axis0 _ _
    | ⟨1, _⟩ => exact (lhs_axis1 _ _).trans hk)
  have er : dot_S100000x64_S64x64_S100000x64_1_0_0_1_n_n.rhsIdx i ((contrEquiv1 dot_S100000x64_S64x64_S100000x64_1_0_0_1_n_n 64 rfl rfl).symm k) = Cert.KernelIdeal.Matmul.wAt k (i 1).val (idx2_lt1 i) := funext fun a => Fin.ext (by
    match a with
    | ⟨0, _⟩ => exact (rhs_axis0 _ _).trans hk
    | ⟨1, _⟩ => exact rhs_axis1 _ _)
  rw [el, er]

/-- On the extended reals the reference's epilogue is the kernel's: the twice-broadcast bias vector at `(r, q)` and the
    reshaped bias row at `(0, q)` are both the bias of column `q`. -/
theorem refEpilogue_eq (a : FVec Ideal S100000x64 .f32) (b : FVec Ideal S64 .f32) :
    refEpilogue (F := Ideal) a b
      = Cert.KernelIdeal.Epilogue.biasRelu a (Cert.KernelIdeal.Host.biasRow (F := Ideal) b) := by
  funext i
  have hi1 : (i 1).val < 64 := idx2_lt1 i
  unfold refEpilogue Cert.KernelIdeal.Epilogue.biasRelu Cert.KernelIdeal.Host.biasRow
  show max (a i + broadcastInDim S100000x64 ![0, 1] bcast_S1x64_S100000x64_0_1 (broadcastInDim S1x64 ![1] bcast_S64_S1x64_1 b) i)
      (broadcastInDim S100000x64 ![] bcast_S_S100000x64 (constant (F := Ideal) S_ .f32 0x00000000#32) i)
    = max (a i + shapeCast Cert.KernelIdeal.S1x64 b Cert.KernelIdeal.Gen.shapeCasts_S64_S1x64 (Cert.KernelIdeal.Epilogue.biasAt (i 1).val hi1))
      (FloatOps.ofBits (F := Ideal) .f32 0x00000000#32)
  rw [broadcastInDim_apply ![0, 1] bcast_S1x64_S100000x64_0_1 (broadcastInDim S1x64 ![1] bcast_S64_S1x64_1 b) i
        (Cert.KernelIdeal.Epilogue.biasAt (i 1).val hi1) (fun a => by
          match a with
          | ⟨0, _⟩ => rfl
          | ⟨1, _⟩ => rfl),
    broadcastInDim_apply ![1] bcast_S64_S1x64_1 b (Cert.KernelIdeal.Epilogue.biasAt (i 1).val hi1) (ix1 (⟨(i 1).val, hi1⟩ : Fin 64)) (fun a => by
          match a with
          | ⟨0, _⟩ => rfl),
    shapeCast_apply b Cert.KernelIdeal.Gen.shapeCasts_S64_S1x64 (Cert.KernelIdeal.Epilogue.biasAt (i 1).val hi1) (ix1 (⟨(i 1).val, hi1⟩ : Fin 64))
      (by rw [Shape.rowMajor_val_one, Shape.rowMajor_val_two]; show (i 1).val = 0 * 64 + (i 1).val; omega)]
  rfl

end Cert.ReferenceIdeal.Hand

end
-- ==== Proof.lean ====
/-
  A graph-convolution layer with a ReLU: `relu (aggregate (x · W) e + bias)`, the kernel program against the jnp reference.

  The kernel program has two kernel regions around one host stretch. The first region forms `x · W` in ten row blocks of
  10000 rows (both operands narrowed to bf16, the identity on the extended reals, the product into a zero accumulator);
  the host stretch turns it and the edge list into the aggregated array — degrees, their inverse square roots, a gather of
  the source rows scaled by the edge weights, a scatter-add into the destinations —; the second region adds the bias row
  and clamps at zero, again in ten row blocks. The reference does the product and the epilogue as whole-array host
  operations around the SAME host stretch, operation for operation and literal for literal.

  So the two results are one function of the arguments:
  * `∑ k, x[r, k] · W[k, q]` on both sides (the kernel's blocks tile the rows; only the order of a finite sum could differ,
    and both are the sum over `k : Fin 64`);
  * the host stretch is carried as one named function `aggregate` applied to equal arrays — it is never opened, so
    whatever a gather or a scatter does with a node number outside the table, it does on both sides;
  * `max (a[r, q] + bias[q], 0)` on both sides (a reshaped against a twice-broadcast bias vector).
  No step moves a factor across a sum or cancels, so the finiteness of the inputs is not used.

  The frames of the two kernel programs are the generated ones; the reference's frame is its run with the result dropped;
  the ideal pass rewrote nothing, so there is nothing to preserve.
-/
import proofs.«152107_j28303834481477_1_alg».proof.Defs
import proofs.«152107_j28303834481477_1_alg».proof.Proof.Gen.Kernel
import proofs.«152107_j28303834481477_1_alg».proof.Proof.Gen.Kernel.Frame
import proofs.«152107_j28303834481477_1_alg».proof.Proof.Gen.KernelIdeal
import proofs.«152107_j28303834481477_1_alg».proof.Proof.Gen.KernelIdeal.Frame
import proofs.«152107_j28303834481477_1_alg».proof.Proof.Gen.ReferenceIdeal
import proofs.«152107_j28303834481477_1_alg».proof.Proof.Gen.Pre_finite_inputs
import proofs.«152107_j28303834481477_1_alg».proof.Proof.RefRun
import proofs.«152107_j28303834481477_1_alg».proof.Proof.KernelValue
import proofs.«152107_j28303834481477_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the result buffer at `relu (aggregate (x · W) e + bias)` of arguments that agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Hand.result_term, Cert.ReferenceIdeal.Hand.hostProduct_eq, Cert.ReferenceIdeal.Hand.refEpilogue_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
